-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S1024x4096 .f32) (main_arg2 : FVec F S4096 .f32) (main_arg3 : FVec F S4096x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Kernel.lean ====
abbrev S4x2048x1024 : Shape := ⟨3, ![4, 2048, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8192x1024 : Shape := ⟨2, ![8192, 1024]⟩
abbrev S1x4096 : Shape := ⟨2, ![1, 4096]⟩
abbrev S1x1024 : Shape := ⟨2, ![1, 1024]⟩
abbrev S256x1024 : Shape := ⟨2, ![256, 1024]⟩
abbrev S256x4096 : Shape := ⟨2, ![256, 4096]⟩

abbrev nBuf : Space → Nat
  | .hbm => 12
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S8192x1024, .f32⟩
  | .hbm, ⟨6, _⟩ => ⟨S1024x4096, .bf16⟩
  | .hbm, ⟨7, _⟩ => ⟨S4096x1024, .bf16⟩
  | .hbm, ⟨8, _⟩ => ⟨S1x4096, .f32⟩
  | .hbm, ⟨9, _⟩ => ⟨S1x1024, .f32⟩
  | .hbm, ⟨10, _⟩ => ⟨S8192x1024, .f32⟩
  | .hbm, ⟨11, _⟩ => ⟨S4x2048x1024, .f32⟩
  | .local _ .vmem, ⟨0, _⟩ => ⟨S256x1024, .f32⟩
  | .local _ .vmem, ⟨1, _⟩ => ⟨S256x1024, .f32⟩
  | .local _ .vmem, ⟨2, _⟩ => ⟨S1024x4096, .bf16⟩
  | .local _ .vmem, ⟨3, _⟩ => ⟨S1x4096, .f32⟩
  | .local _ .vmem, ⟨4, _⟩ => ⟨S4096x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x2048x1024_S8192x1024 : S4x2048x1024.ShapeCasts S8192x1024
  bitsLt_bf16_f32 : FTy.bits .bf16 < FTy.bits .f32
  shapeCasts_S4096_S1x4096 : S4096.ShapeCasts S1x4096
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S8192x1024_S4x2048x1024 : S8192x1024.ShapeCasts S4x2048x1024
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S4x2048x4096 : Shape := ⟨3, ![4, 2048, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S_, .f32⟩
  | .hbm, ⟨10, _⟩ => ⟨S4x2048x4096, .f32⟩
  | .hbm, ⟨11, _⟩ => ⟨S4x2048x4096, .f32⟩
  | .hbm, ⟨12, _⟩ => ⟨S4x2048x1024, .f32⟩
  | .hbm, ⟨13, _⟩ => ⟨S1x1x1024, .f32⟩
  | .hbm, ⟨14, _⟩ => ⟨S4x2048x1024, .f32⟩
  | .hbm, ⟨15, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S1024x4096_S4x2048x4096_2_0_01_1_n_n_wf : DotDims.WF S4x2048x1024 S1024x4096 S4x2048x4096 [2] [0] [0, 1] [1] [] []
  dot_S4x2048x4096_S4096x1024_S4x2048x1024_2_0_01_1_n_n_wf : DotDims.WF S4x2048x4096 S4096x1024 S4x2048x1024 [2] [0] [0, 1] [1] [] []

variable [Facts₀]

def dot_S4x2048x1024_S1024x4096_S4x2048x4096_2_0_01_1_n_n : DotDims S4x2048x1024 S1024x4096 S4x2048x4096 where
  lhsContracting := [2]
  rhsContracting := [0]
  lhsNonContracting := [0, 1]
  rhsNonContracting := [1]
  lhsBatch := []
  rhsBatch := []
  wf := dot_S4x2048x1024_S1024x4096_S4x2048x4096_2_0_01_1_n_n_wf
def dot_S4x2048x4096_S4096x1024_S4x2048x1024_2_0_01_1_n_n : DotDims S4x2048x4096 S4096x1024 S4x2048x1024 where
  lhsContracting := [2]
  rhsContracting := [0]
  lhsNonContracting := [0, 1]
  rhsNonContracting := [1]
  lhsBatch := []
  rhsBatch := []
  wf := dot_S4x2048x4096_S4096x1024_S4x2048x1024_2_0_01_1_n_n_wf

class Facts : Prop extends Facts₀ where

variable [Facts]
-- ==== Proof.MlpSpec.lean ====
/-
  A two-layer perceptron with a rectifier between the layers, over the extended reals, one row at a time:

      out q = (Σ_j max (Σ_k x k · w1 k j + c1 j) 0 · w2 j q) + c2 q .

  Both programs compute this for each of the 4 · 2048 rows of the input. It is stated here once over plain
  coordinates (so that either side may read its own arrays into it), and once on the rank-3 array returned.
  Only sums, products, one maximum and two additions of a bias appear: no law beyond rearranging which index
  names a summand is ever needed to compare two readings of it, so finiteness of the inputs plays no part.
-/
import Idealize.ShloMosaic.PureOps.Ideal
import Idealize.ShloMosaic.Lib.ValueIdx

noncomputable section

namespace Cert.Mlp

open Idealize.ShloMosaic Idealize.ShloMosaic.ValueIdx

/-- Entry `j` of the hidden layer of a row `x`: the row against column `j` of the first weight matrix, plus the first
    bias, floored at zero. -/
def hidden (x : Fin 1024 → EReal) (w1 : Fin 1024 → Fin 4096 → EReal) (c1 : Fin 4096 → EReal) (j : Fin 4096) : EReal :=
  max ((∑ k : Fin 1024, x k * w1 k j) + c1 j) 0

/-- Entry `q` of the output of that row: the hidden layer against column `q` of the second weight matrix, plus the
    second bias. -/
def row (x : Fin 1024 → EReal) (w1 : Fin 1024 → Fin 4096 → EReal) (c1 : Fin 4096 → EReal)
    (w2 : Fin 4096 → Fin 1024 → EReal) (c2 : Fin 1024 → EReal) (q : Fin 1024) : EReal :=
  (∑ j : Fin 4096, hidden x w1 c1 j * w2 j q) + c2 q

/-- The whole result: entry `(b, s, q)` is the output's entry `q` of row `(b, s)` of the input. -/
def spec (hs : (⟨3, ![4, 2048, 1024]⟩ : Shape).Idx → EReal) (W1 : (⟨2, ![1024, 4096]⟩ : Shape).Idx → EReal)
    (b1 : (⟨1, ![4096]⟩ : Shape).Idx → EReal) (W2 : (⟨2, ![4096, 1024]⟩ : Shape).Idx → EReal)
    (b2 : (⟨1, ![1024]⟩ : Shape).Idx → EReal) : (⟨3, ![4, 2048, 1024]⟩ : Shape).Idx → EReal :=
  fun i => row (fun k => hs (ix3 (i 0) (i 1) k)) (fun k j => W1 (ix2 k j)) (fun j => b1 (ix1 j))
    (fun j q => W2 (ix2 j q)) (fun q => b2 (ix1 q)) (i 2)

/-- The same at named coordinates. -/
theorem spec_ix3 (hs : (⟨3, ![4, 2048, 1024]⟩ : Shape).Idx → EReal) (W1 : (⟨2, ![1024, 4096]⟩ : Shape).Idx → EReal)
    (b1 : (⟨1, ![4096]⟩ : Shape).Idx → EReal) (W2 : (⟨2, ![4096, 1024]⟩ : Shape).Idx → EReal)
    (b2 : (⟨1, ![1024]⟩ : Shape).Idx → EReal) (b : Fin 4) (s : Fin 2048) (q : Fin 1024) :
    spec hs W1 b1 W2 b2 (ix3 b s q) = row (fun k => hs (ix3 b s k)) (fun k j => W1 (ix2 k j)) (fun j => b1 (ix1 j))
      (fun j q => W2 (ix2 j q)) (fun q => b2 (ix1 q)) q := rfl

/-- Two readings of a row agree as soon as their five arrays and the entry agree. -/
theorem row_congr {x x' : Fin 1024 → EReal} {w1 w1' : Fin 1024 → Fin 4096 → EReal} {c1 c1' : Fin 4096 → EReal}
    {w2 w2' : Fin 4096 → Fin 1024 → EReal} {c2 c2' : Fin 1024 → EReal} {q q' : Fin 1024}
    (hx : x = x') (h1 : w1 = w1') (hc1 : c1 = c1') (h2 : w2 = w2') (hc2 : c2 = c2') (hq : q = q') :
    row x w1 c1 w2 c2 q = row x' w1' c1' w2' c2' q' := by
  subst hx h1 hc1 h2 hc2 hq; rfl

end Cert.Mlp

end
-- ==== Proof.ReferenceValue.lean ====
/-
  The reference's result is the perceptron of `MlpSpec`, entry by entry.

  The reference contracts the input's last axis against the first weight matrix (a sum over `k < 1024`), adds the
  first bias broadcast along the rows, takes the maximum with a zero broadcast to the whole array, contracts the
  hidden axis against the second weight matrix (a sum over `j < 4096`) and adds the second bias. Read at an entry
  `(b, s, q)` each of these touches one entry of its operands, or one sum of products of them; what remains is
  to see that the operand indices so reached are the coordinates the specification names.
-/
import proofs.«124247_j6691559047432_1_alg».proof.Proof.Gen.ReferenceIdeal.Run
import proofs.«124247_j6691559047432_1_alg».proof.Proof.Gen.ReferenceIdeal.Read
import proofs.«124247_j6691559047432_1_alg».proof.Proof.MlpSpec

noncomputable section

namespace Cert.RefMlp

open Cert.ReferenceIdeal Cert.ReferenceIdeal.Read Idealize.ShloMosaic Idealize.ShloMosaic.ValueIdx

/-! ## The operand entries an output entry reaches -/

/-- Summand `k` of hidden entry `j` of row `(b, s)` reads the input at `(b, s, k)`. -/
theorem in_idx (i : S4x2048x1024.Idx) (j : Fin 4096) (k : Fin 1024) :
    lidx_main_v0 (lidx_main_v5 i j) k = ix3 (i 0) (i 1) k :=
  funext fun a => Fin.ext (by match a with | ⟨0, _⟩ => rfl | ⟨1, _⟩ => rfl | ⟨2, _⟩ => rfl)

/-- … and the first weight matrix at `(k, j)`. -/
theorem w1_idx (i : S4x2048x1024.Idx) (j : Fin 4096) (k : Fin 1024) :
    ridx_main_v0 (lidx_main_v5 i j) k = ix2 k j :=
  funext fun a => Fin.ext (by match a with | ⟨0, _⟩ => rfl | ⟨1, _⟩ => rfl)

/-- Hidden entry `j` reads the first bias at `j`, whatever the row. -/
theorem b1_idx (i : S4x2048x1024.Idx) (j : Fin 4096) :
    idx_main_v1 (idx_main_v2 (lidx_main_v5 i j)) = ix1 j :=
  funext fun a => Fin.ext (by match a with | ⟨0, _⟩ => rfl)

/-- Summand `j` of output entry `q` reads the second weight matrix at `(j, q)`. -/
theorem w2_idx (i : S4x2048x1024.Idx) (j : Fin 4096) : ridx_main_v5 i j = ix2 j (i 2) :=
  funext fun a => Fin.ext (by match a with | ⟨0, _⟩ => rfl | ⟨1, _⟩ => rfl)

/-- Output entry `q` reads the second bias at `q`, whatever the row. -/
theorem b2_idx (i : S4x2048x1024.Idx) : idx_main_v6 (idx_main_v7 i) = ix1 (i 2) :=
  funext fun a => Fin.ext (by match a with | ⟨0, _⟩ => rfl)

/-! ## The result -/

/-- The reference's last stage is the specification. -/
theorem result_eq (x0 : (⟨S4x2048x1024, .f32⟩ : BufTy).Contents (Elt Ideal)) (x1 : (⟨S1024x4096, .f32⟩ : BufTy).Contents (Elt Ideal))
    (x2 : (⟨S4096, .f32⟩ : BufTy).Contents (Elt Ideal)) (x3 : (⟨S4096x1024, .f32⟩ : BufTy).Contents (Elt Ideal))
    (x4 : (⟨S1024, .f32⟩ : BufTy).Contents (Elt Ideal)) :
    val_main_v8 (F := Ideal) x0 x1 x2 x3 x4 = Cert.Mlp.spec x0 x1 x2 x3 x4 := by
  funext i
  rw [val_main_v8_apply, val_main_v5_apply, val_main_v7_apply, val_main_v6_apply]
  simp only [val_main_v4_apply, val_main_v3_apply, val_main_v0_apply, val_main_v2_apply, val_main_v1_apply,
    val_main_call0_v0_apply, val_main_call0_cst_apply, Ideal.addf_def, Ideal.maximumf_def, Ideal.ofBits_def,
    Ideal.ofBits_zero_f32, in_idx, w1_idx, b1_idx, w2_idx, b2_idx]
  rfl

end Cert.RefMlp

end
-- ==== Proof.KernelPayload.lean ====
/-
  What one grid point computes: the perceptron of `MlpSpec` on the point's 256 rows.

  The body loads a block of 256 rows of the input, both weight matrices whole and both biases as single rows,
  and stores one value: the rows against the first weights (a product into a zero accumulator, so a plain sum
  over `k < 1024`), plus the first bias broadcast down the rows, floored at a zero splat, against the second
  weights (again a plain sum, over `j < 4096`), plus the second bias broadcast down the rows. The casts between
  number formats and the casts of a shape to itself change nothing at the extended reals. So entry `(p, q)` of
  the stored value is `Mlp.row` of row `p` of the input block.
-/
import proofs.«124247_j6691559047432_1_alg».proof.Proof.Gen.KernelIdeal.Skeleton
import proofs.«124247_j6691559047432_1_alg».proof.Proof.MlpSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelMlp

open Cert.KernelIdeal Cert.KernelIdeal.Gen Idealize.ShloMosaic Idealize.ShloMosaic.TcCoe Idealize.ShloMosaic.ValueIdx

/-! ## The first product, [256, 1024] · [1024, 4096], at an entry -/

/-- The left operand is read in the output's row … -/
theorem lhs1_0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
/-- … at the summation index, -/
theorem lhs1_1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
/-- the right operand at the summation index … -/
theorem rhs1_0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
/-- … in the output's column. -/
theorem rhs1_1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- Into a zero accumulator the product's entry `(p, j)` is the sum over `k` of row `p` against column `j`. -/
theorem mm1_apply (a : FVec Ideal S256x1024 .bf16) (b : FVec Ideal S1024x4096 .bf16) (p : Fin 256) (j : Fin 4096) :
    matmul dot_S256x1024_S1024x4096_S256x4096_1_0_0_1_n_n none a b (constant (F := Ideal) S256x4096 .f32 0x00000000#32) (ix2 p j)
      = ∑ k : Fin 1024, a (ix2 p k) * b (ix2 k j) := by
  simp only [matmul]
  rw [Ideal.matmul_constant_zero_apply, ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 p j) ((contrEquiv1 dot_S256x1024_S1024x4096_S256x4096_1_0_0_1_n_n 1024 rfl rfl).symm k) = ix2 p k := funext fun ax => Fin.ext (by
    match ax with
    | ⟨0, _⟩ => exact lhs1_0 _ _
    | ⟨1, _⟩ => exact (lhs1_1 _ _).trans hk)
  have er : dot_S256x1024_S1024x4096_S256x4096_1_0_0_1_n_n.rhsIdx (ix2 p j) ((contrEquiv1 dot_S256x1024_S1024x4096_S256x4096_1_0_0_1_n_n 1024 rfl rfl).symm k) = ix2 k j := funext fun ax => Fin.ext (by
    match ax with
    | ⟨0, _⟩ => exact (rhs1_0 _ _).trans hk
    | ⟨1, _⟩ => exact rhs1_1 _ _)
  rw [el, er]

/-! ## The second product, [256, 4096] · [4096, 1024], at an entry -/

theorem lhs2_0 (i : S256x1024.Idx) (q : dot_S256x4096_S4096x1024_S256x1024_1_0_0_1_n_n.contr.Idx) :
    (dot_S256x4096_S4096x1024_S256x1024_1_0_0_1_n_n.lhsIdx i q 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
theorem lhs2_1 (i : S256x1024.Idx) (q : dot_S256x4096_S4096x1024_S256x1024_1_0_0_1_n_n.contr.Idx) :
    (dot_S256x4096_S4096x1024_S256x1024_1_0_0_1_n_n.lhsIdx i q 1).val = (q ⟨0, by decide⟩).val :=
  dot_S256x4096_S4096x1024_S256x1024_1_0_0_1_n_n.lhsIdx_val_of_single rfl i q
theorem rhs2_0 (i : S256x1024.Idx) (q : dot_S256x4096_S4096x1024_S256x1024_1_0_0_1_n_n.contr.Idx) :
    (dot_S256x4096_S4096x1024_S256x1024_1_0_0_1_n_n.rhsIdx i q 0).val = (q ⟨0, by decide⟩).val :=
  dot_S256x4096_S4096x1024_S256x1024_1_0_0_1_n_n.rhsIdx_val_of_single rfl i q
theorem rhs2_1 (i : S256x1024.Idx) (q : dot_S256x4096_S4096x1024_S256x1024_1_0_0_1_n_n.contr.Idx) :
    (dot_S256x4096_S4096x1024_S256x1024_1_0_0_1_n_n.rhsIdx i q 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-- Into a zero accumulator the product's entry `(p, q)` is the sum over `j` of row `p` against column `q`. -/
theorem mm2_apply (a : FVec Ideal S256x4096 .bf16) (b : FVec Ideal S4096x1024 .bf16) (p : Fin 256) (q : Fin 1024) :
    matmul dot_S256x4096_S4096x1024_S256x1024_1_0_0_1_n_n none a b (constant (F := Ideal) S256x1024 .f32 0x00000000#32) (ix2 p q)
      = ∑ j : Fin 4096, a (ix2 p j) * b (ix2 j q) := by
  simp only [matmul]
  rw [Ideal.matmul_constant_zero_apply, ← Equiv.sum_comp (contrEquiv1 dot_S256x4096_S4096x1024_S256x1024_1_0_0_1_n_n 4096 rfl rfl).symm]
  refine Finset.sum_congr rfl fun k _ => ?_
  have hk := contrEquiv1_symm_val dot_S256x4096_S4096x1024_S256x1024_1_0_0_1_n_n 4096 rfl rfl k
  have el : dot_S256x4096_S4096x1024_S256x1024_1_0_0_1_n_n.lhsIdx (ix2 p q) ((contrEquiv1 dot_S256x4096_S4096x1024_S256x1024_1_0_0_1_n_n 4096 rfl rfl).symm k) = ix2 p k := funext fun ax => Fin.ext (by
    match ax with
    | ⟨0, _⟩ => exact lhs2_0 _ _
    | ⟨1, _⟩ => exact (lhs2_1 _ _).trans hk)
  have er : dot_S256x4096_S4096x1024_S256x1024_1_0_0_1_n_n.rhsIdx (ix2 p q) ((contrEquiv1 dot_S256x4096_S4096x1024_S256x1024_1_0_0_1_n_n 4096 rfl rfl).symm k) = ix2 k q := funext fun ax => Fin.ext (by
    match ax with
    | ⟨0, _⟩ => exact (rhs2_0 _ _).trans hk
    | ⟨1, _⟩ => exact rhs2_1 _ _)
  rw [el, er]

/-! ## The stored value at an entry -/

/-- Entry `(p, q)` of what the body stores, from the blocks it loaded: the perceptron's output entry `q` of row `p` of
    the input block, the biases read in their one row. -/
theorem pay_apply (x0 : FVec Ideal S256x1024 .f32) (x1 : FVec Ideal S1024x4096 .bf16) (x2 : FVec Ideal S1x4096 .f32)
    (x3 : FVec Ideal S4096x1024 .bf16) (x4 : FVec Ideal S1x1024 .f32) (p : Fin 256) (q : Fin 1024) :
    k0_pay1 (F := Ideal) x0 x1 x2 x3 x4 (ix2 p q)
      = Cert.Mlp.row (fun k => x0 (ix2 p k)) (fun k j => x1 (ix2 k j)) (fun j => x2 (ix2 (0 : Fin 1) j))
          (fun j q => x3 (ix2 j q)) (fun q => x4 (ix2 (0 : Fin 1) q)) q := by
  unfold k0_pay1
  simp only [shapeCast_self]
  refine (addf_apply _ _ _).trans ?_
  rw [mm2_apply, broadcastTo_1b_ab_apply]
  unfold Cert.Mlp.row Cert.Mlp.hidden
  refine congrArg (· + x4 (ix2 (0 : Fin 1) q)) (Finset.sum_congr rfl fun j _ => ?_)
  refine congrArg (· * x3 (ix2 j q)) ?_
  show max (matmul dot_S256x1024_S1024x4096_S256x4096_1_0_0_1_n_n none (truncf .bf16 x0 bitsLt_bf16_f32) x1 (constant (F := Ideal) S256x4096 .f32 0x00000000#32) (ix2 p j)
      + broadcastTo S256x4096 x2 broadcasts_S1x4096_S256x4096 (ix2 p j)) (Ideal.ofBits .f32 0x00000000#32) = _
  rw [mm1_apply, broadcastTo_1b_ab_apply, Ideal.ofBits_zero_f32]
  rfl

end Cert.KernelMlp

end
-- ==== Proof.KernelBlocks.lean ====
/-
  From the grid points to the whole output array.

  The pipeline visits 32 points; at point `t` it hands the body rows `256·t … 256·t + 255` of the (flattened)
  input, both weight matrices and both bias rows whole, and writes the body's stored value back as the same 256
  rows of the output. So what point `t` writes back is the block of rows `256·t …` of ONE function of the arrays
  the region found: row `r` of the output is the perceptron of row `r` of the input. The 32 blocks tile the 8192
  rows (row `r` lies in block `r / 256`), hence the output array ends as that function.
-/
import proofs.«124247_j6691559047432_1_alg».proof.Proof.Gen.KernelIdeal.Frame
import proofs.«124247_j6691559047432_1_alg».proof.Proof.KernelPayload
import Idealize.ShloMosaic.Lib.Pipeline.Value

set_option maxRecDepth 16384

noncomputable section

namespace Cert.KernelMlp

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the region finds, by what they are to the perceptron -/

/-- The input, flattened to 8192 rows. -/
abbrev xarr (c : Dev nD) : FVec Ideal S8192x1024 .f32 := V m c main_v0
/-- The first weight matrix. -/
abbrev w1arr (c : Dev nD) : FVec Ideal S1024x4096 .bf16 := V m c main_v1
/-- The first bias, as one row. -/
abbrev b1arr (c : Dev nD) : FVec Ideal S1x4096 .f32 := V m c main_v3
/-- The second weight matrix. -/
abbrev w2arr (c : Dev nD) : FVec Ideal S4096x1024 .bf16 := V m c main_v2
/-- The second bias, as one row. -/
abbrev b2arr (c : Dev nD) : FVec Ideal S1x1024 .f32 := V m c main_v4

/-- Entry `(r, q)` of the output: the perceptron's entry `q` of row `r` of the flattened input. -/
def outAt (c : Dev nD) (r : Fin 8192) (q : Fin 1024) : EReal :=
  Cert.Mlp.row (fun k => xarr m c (ix2 r k)) (fun k j => w1arr m c (ix2 k j)) (fun j => b1arr m c (ix2 (0 : Fin 1) j))
    (fun j q => w2arr m c (ix2 j q)) (fun q => b2arr m c (ix2 (0 : Fin 1) q)) q

/-- The output array as one function of the arrays the region finds. -/
def outArr (c : Dev nD) : FVec Ideal S8192x1024 .f32 := fun i => outAt m c (i 0) (i 1)

/-! ## Where each window's block sits -/

theorem hz : (![0, 0] : Fin 2 → Nat) = fun _ => 0 := funext fun a => by fin_cases a <;> rfl

/-- The input's block moves down with the output's; every other input is one block, the whole array; the output's
    block index runs over the 32 row blocks. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 31 ∧ win0_5.index t (1 : Fin 2) = 0 :=
  (by decide +kernel : ∀ t : Fin grid0.N, _)

/-- Every row block is some point's. -/
theorem idx_onto : ∀ q0 : Fin 32, ∃ t : Fin cfg0.N, win0_5.index t = ![q0.val, 0] :=
  (by decide +kernel : ∀ q0 : Fin 32, ∃ t : Fin grid0.N, win0_5.index t = ![q0.val, 0])

/-! ## The blocks the body is handed, read in the arrays -/

/-- Row `p` of the input block at point `t` is row `r` of the flattened input, `r` the block's first row plus `p`. -/
theorem read_x (c : Dev nD) (t : Fin cfg0.N) (p : Fin 256) (k : Fin 1024) (r : Fin 8192)
    (hr : r.val = win0_5.index t (0 : Fin 2) * 256 + p.val) : iblk m c 0 t (ix2 p k) = xarr m c (ix2 r k) := by
  show V m c main_v0 (((cfg0.win 0).blk t).view.emb (ix2 p k)) = V m c main_v0 (ix2 r k)
  obtain ⟨e0, e1, -⟩ := idx_facts t
  have h : ((cfg0.win 0).blk t).view.emb (ix2 p k) = ix2 r k := by
    funext a; apply Fin.ext
    match a with
    | ⟨0, _⟩ => show win0_0.index t (0 : Fin 2) * 256 + 1 * p.val = r.val; omega
    | ⟨1, _⟩ => show win0_0.index t (1 : Fin 2) * 1024 + 1 * k.val = k.val; omega
  rw [h]

/-- The first weight matrix is handed whole. -/
theorem read_w1 (c : Dev nD) (t : Fin cfg0.N) (k : Fin 1024) (j : Fin 4096) : iblk m c 1 t (ix2 k j) = w1arr m c (ix2 k j) := by
  show V m c main_v1 (((cfg0.win 1).blk t).view.emb (ix2 k j)) = V m c main_v1 (ix2 k j)
  obtain ⟨-, -, e0, e1, -⟩ := idx_facts t
  have h : ((cfg0.win 1).blk t).view.emb (ix2 k j) = ix2 k j := by
    funext a; apply Fin.ext
    match a with
    | ⟨0, _⟩ => show win0_1.index t (0 : Fin 2) * 1024 + 1 * k.val = k.val; omega
    | ⟨1, _⟩ => show win0_1.index t (1 : Fin 2) * 4096 + 1 * j.val = j.val; omega
  rw [h]

/-- The first bias row is handed whole. -/
theorem read_b1 (c : Dev nD) (t : Fin cfg0.N) (j : Fin 4096) : iblk m c 2 t (ix2 (0 : Fin 1) j) = b1arr m c (ix2 (0 : Fin 1) j) := by
  show V m c main_v3 (((cfg0.win 2).blk t).view.emb (ix2 (0 : Fin 1) j)) = V m c main_v3 (ix2 (0 : Fin 1) j)
  obtain ⟨-, -, -, -, e0, e1, -⟩ := idx_facts t
  have h : ((cfg0.win 2).blk t).view.emb (ix2 (0 : Fin 1) j) = ix2 (0 : Fin 1) j := by
    funext a; apply Fin.ext
    match a with
    | ⟨0, _⟩ => show win0_2.index t (0 : Fin 2) * 1 + 1 * 0 = 0; omega
    | ⟨1, _⟩ => show win0_2.index t (1 : Fin 2) * 4096 + 1 * j.val = j.val; omega
  rw [h]

/-- The second weight matrix is handed whole. -/
theorem read_w2 (c : Dev nD) (t : Fin cfg0.N) (j : Fin 4096) (q : Fin 1024) : iblk m c 3 t (ix2 j q) = w2arr m c (ix2 j q) := by
  show V m c main_v2 (((cfg0.win 3).blk t).view.emb (ix2 j q)) = V m c main_v2 (ix2 j q)
  obtain ⟨-, -, -, -, -, -, e0, e1, -⟩ := idx_facts t
  have h : ((cfg0.win 3).blk t).view.emb (ix2 j q) = ix2 j q := by
    funext a; apply Fin.ext
    match a with
    | ⟨0, _⟩ => show win0_3.index t (0 : Fin 2) * 4096 + 1 * j.val = j.val; omega
    | ⟨1, _⟩ => show win0_3.index t (1 : Fin 2) * 1024 + 1 * q.val = q.val; omega
  rw [h]

/-- The second bias row is handed whole. -/
theorem read_b2 (c : Dev nD) (t : Fin cfg0.N) (q : Fin 1024) : iblk m c 4 t (ix2 (0 : Fin 1) q) = b2arr m c (ix2 (0 : Fin 1) q) := by
  show V m c main_v4 (((cfg0.win 4).blk t).view.emb (ix2 (0 : Fin 1) q)) = V m c main_v4 (ix2 (0 : Fin 1) q)
  obtain ⟨-, -, -, -, -, -, -, -, e0, e1, -⟩ := idx_facts t
  have h : ((cfg0.win 4).blk t).view.emb (ix2 (0 : Fin 1) q) = ix2 (0 : Fin 1) q := by
    funext a; apply Fin.ext
    match a with
    | ⟨0, _⟩ => show win0_4.index t (0 : Fin 2) * 1 + 1 * 0 = 0; omega
    | ⟨1, _⟩ => show win0_4.index t (1 : Fin 2) * 1024 + 1 * q.val = q.val; omega
  rw [h]

/-! ## What a point writes back -/

/-- Point `t` writes back the block of rows `256·t …` of `outArr`. -/
theorem flushed_eq (c : Dev nD) (t : Fin cfg0.N) :
    (dats m 0 c).flushed 5 t = ((cfg0.win 5).blk t).view.read (Elt Ideal) (outArr m c) := by
  show (cfg0.win 5).cut (grid0.coords t) ((dats m 0 c).after 5 t) = _
  rw [after0_5]
  unfold out0_5
  rw [View.canon_unit_zero hz]
  simp only [View.ld_unit_zero (S := S256x1024) hz, View.ld_unit_zero (S := S1024x4096) hz, View.ld_unit_zero (S := S1x4096) hz,
    View.ld_unit_zero (S := S4096x1024) hz, View.ld_unit_zero (S := S1x1024) hz]
  funext y
  obtain ⟨p, q, rfl⟩ : ∃ (p : Fin 256) (q : Fin 1024), y = ix2 p q := ⟨y 0, y 1, eq_ix2 y⟩
  obtain ⟨-, -, -, -, -, -, -, -, -, -, e0, e1⟩ := idx_facts t
  have hE : ((cfg0.win 5).blk t).view.emb (ix2 p q)
      = ix2 (⟨win0_5.index t (0 : Fin 2) * 256 + p.val, by have := p.isLt; omega⟩ : Fin 8192) q := by
    funext a; apply Fin.ext
    match a with
    | ⟨0, _⟩ => show win0_5.index t (0 : Fin 2) * 256 + 1 * p.val = win0_5.index t (0 : Fin 2) * 256 + p.val; omega
    | ⟨1, _⟩ => show win0_5.index t (1 : Fin 2) * 1024 + 1 * q.val = q.val; omega
  show k0_pay1 (F := Ideal) (iblk m c 0 t) (iblk m c 1 t) (iblk m c 2 t) (iblk m c 3 t) (iblk m c 4 t) (ix2 p q)
      = outArr m c (((cfg0.win 5).blk t).view.emb (ix2 p q))
  rw [hE]
  refine (pay_apply (iblk m c 0 t) (iblk m c 1 t) (iblk m c 2 t) (iblk m c 3 t) (iblk m c 4 t) p q).trans ?_
  show _ = outAt m c (⟨win0_5.index t (0 : Fin 2) * 256 + p.val, by have := p.isLt; omega⟩ : Fin 8192) q
  unfold outAt
  exact Cert.Mlp.row_congr (funext fun k => read_x m c t p k _ rfl) (funext fun k => funext fun j => read_w1 m c t k j)
    (funext fun j => read_b1 m c t j) (funext fun j => funext fun q' => read_w2 m c t j q') (funext fun q' => read_b2 m c t q') rfl

/-! ## The blocks tile the array -/

/-- An index is in point `t`'s block when each coordinate is in the block's range. -/
theorem mem_blk (t : Fin cfg0.N) (i : S8192x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v5).slice (win0_5.rect t)).set ↔ _
  rw [View.set_slice_whole, Rect.mem_set_unit]
  exact Iff.rfl

/-- Row `r` lies in the block of the point whose block index is `r / 256`. -/
theorem cover (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  obtain ⟨t, ht⟩ := idx_onto ⟨(i 0).val / 256, by omega⟩
  have q0 : win0_5.index t (0 : Fin 2) = (i 0).val / 256 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

/-- The output array after the region. -/
theorem final (c : Dev nD) : (dats m 0 c).arrAt 5 cfg0.N = outArr m c :=
  (dats m 0 c).arrAt_eq_of_cover 5 (outArr m c) (fun t _ => flushed_eq m c t) cover

end Cert.KernelMlp

end
-- ==== Proof.KernelResult.lean ====
/-
  The kernel program's result is the perceptron of `MlpSpec` of its arguments.

  Before the region the program flattens the input's first two axes (row `(b, s)` becomes row `2048·b + s`),
  changes the number format of the two weight matrices (nothing, at the extended reals) and lays each bias out as
  one row; after it, it unflattens the output. So entry `(b, s, q)` of the result is entry `(2048·b + s, q)` of the
  region's output array, the perceptron of row `2048·b + s` of the flattened input, which is row `(b, s)` of the
  input itself.
-/
import proofs.«124247_j6691559047432_1_alg».proof.Proof.KernelBlocks
import Idealize.ShloMosaic.Lib.StableHlo.Run
import Idealize.ShloMosaic.Lib.ValueLayout

set_option maxRecDepth 16384

noncomputable section

namespace Cert.KernelMlp

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the region finds, from the arguments -/

/-- The flattened input is the input recast to 8192 rows. -/
theorem xarr_eq (c : Dev nD) :
    xarr m c = shapeCast S8192x1024 (m ((c : Thread nD τ).loc main_arg0)) shapeCasts_S4x2048x1024_S8192x1024 := by
  show StableHlo.after hostOps0 (fun b => m (c, b)) (Proc.devRef .tc main_v0) = _
  after_results <;> rfl

/-- The first weight matrix, its format changed. -/
theorem w1arr_eq (c : Dev nD) : w1arr m c = truncf .bf16 (m ((c : Thread nD τ).loc main_arg1)) bitsLt_bf16_f32 := by
  show StableHlo.after hostOps0 (fun b => m (c, b)) (Proc.devRef .tc main_v1) = _
  after_results <;> rfl

/-- The first bias recast to one row. -/
theorem b1arr_eq (c : Dev nD) :
    b1arr m c = shapeCast S1x4096 (m ((c : Thread nD τ).loc main_arg2)) shapeCasts_S4096_S1x4096 := by
  show StableHlo.after hostOps0 (fun b => m (c, b)) (Proc.devRef .tc main_v3) = _
  after_results <;> rfl

/-- The second weight matrix, its format changed. -/
theorem w2arr_eq (c : Dev nD) : w2arr m c = truncf .bf16 (m ((c : Thread nD τ).loc main_arg3)) bitsLt_bf16_f32 := by
  show StableHlo.after hostOps0 (fun b => m (c, b)) (Proc.devRef .tc main_v2) = _
  after_results <;> rfl

/-- The second bias recast to one row. -/
theorem b2arr_eq (c : Dev nD) :
    b2arr m c = shapeCast S1x1024 (m ((c : Thread nD τ).loc main_arg4)) shapeCasts_S1024_S1x1024 := by
  show StableHlo.after hostOps0 (fun b => m (c, b)) (Proc.devRef .tc main_v4) = _
  after_results <;> rfl

/-! ## The result -/

/-- The specification at the program's arguments on core `c`. -/
abbrev want (c : Dev nD) : FVec Ideal S4x2048x1024 .f32 :=
  Cert.Mlp.spec (m ((c : Thread nD τ).loc main_arg0)) (m ((c : Thread nD τ).loc main_arg1)) (m ((c : Thread nD τ).loc main_arg2))
    (m ((c : Thread nD τ).loc main_arg3)) (m ((c : Thread nD τ).loc main_arg4))

/-- Entry `(b, s, q)` of the unflattened output array. -/
theorem result_apply (c : Dev nD) (b : Fin 4) (s : Fin 2048) (q : Fin 1024) :
    shapeCast S4x2048x1024 (outArr m c) shapeCasts_S8192x1024_S4x2048x1024 (ix3 b s q) = want m c (ix3 b s q) := by
  have hb := b.isLt
  have hs := s.isLt
  refine (shapeCast_apply (outArr m c) shapeCasts_S8192x1024_S4x2048x1024 (ix3 b s q)
    (ix2 (⟨b.val * 2048 + s.val, by omega⟩ : Fin 8192) q) ?_).trans ?_
  · rw [Shape.rowMajor_val_two, Shape.rowMajor_val_three]
    rfl
  · show outAt m c (⟨b.val * 2048 + s.val, by omega⟩ : Fin 8192) q = _
    refine Eq.trans ?_ (Cert.Mlp.spec_ix3 _ _ _ _ _ b s q).symm
    unfold outAt
    refine Cert.Mlp.row_congr (funext fun k => ?_) (funext fun k => funext fun j => ?_) (funext fun j => ?_)
      (funext fun j => funext fun q' => ?_) (funext fun q' => ?_) rfl
    · rw [xarr_eq]
      refine shapeCast_apply _ _ _ _ ?_
      show (S4x2048x1024.rowMajor (ix3 b s k)).val = (S8192x1024.rowMajor (ix2 (⟨b.val * 2048 + s.val, by omega⟩ : Fin 8192) k)).val
      rw [Shape.rowMajor_val_two, Shape.rowMajor_val_three]
      rfl
    · rw [w1arr_eq]; rfl
    · rw [b1arr_eq]; exact shapeCast_a_1a_apply _ _ _ _
    · rw [w2arr_eq]; rfl
    · rw [b2arr_eq]; exact shapeCast_a_1a_apply _ _ _ _

/-- The unflattened output array is the specification. -/
theorem result_eq (c : Dev nD) :
    shapeCast S4x2048x1024 (outArr m c) shapeCasts_S8192x1024_S4x2048x1024 = want m c := by
  funext i
  obtain ⟨b, s, q, rfl⟩ : ∃ (b : Fin 4) (s : Fin 2048) (q : Fin 1024), i = ix3 b s q := ⟨i 0, i 1, i 2, eq_ix3 i⟩
  exact result_apply m c b s q

/-- What the line after the region leaves in the result buffer: the region's output array, unflattened. -/
theorem tail_eq (c : Dev nD) :
    Pipeline.afterTail₀ cfgs (dats m) 0 (V0 m) [hostOps1] c main_v6
      = shapeCast S4x2048x1024 (outArr m c) shapeCasts_S8192x1024_S4x2048x1024 := by
  unfold Pipeline.afterTail₀
  show StableHlo.after hostOps1 _ (Proc.devRef .tc main_v6) = _
  after_results
  rw [(Pipeline.withArrays_arr spec0 launch0.win.arr_inj c _ _ 5).trans (final m c)]
  rfl

/-! ## The run -/

/-- Every weakly fair execution of the kernel program ends with the result buffer at the specification of the
    arguments, the arguments unchanged. -/
theorem run : θ_run defs (onTc (τ := τ) (main (F := Ideal))) ⟨m, fun _ => 0, ρ⟩ fun r => ∀ c : Dev nD,
      r.2.mem ((c.tc : Thread nD τ).loc main_v6) = want m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans ((tail_eq m c).trans (result_eq m c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelMlp

end
-- ==== Proof.lean ====
/-
  A tiled two-layer perceptron against its dense form.

  The kernel program flattens a [4, 2048, 1024] input to 8192 rows and runs one pipelined region over 32 blocks of
  256 rows; each block goes through  rows · W1 + b1,  a floor at zero,  · W2 + b2  with both weight matrices
  resident, and the 32 results are the output's rows, unflattened at the end. The reference contracts the input's
  last axis with W1 directly, adds b1, floors at zero through its `relu`, contracts with W2 and adds b2.

  Over the extended reals a change of number format is the identity, a matrix product into a zero accumulator
  and the reference's contraction are the same finite sum of products, and both floors are `max · 0` with the
  same zero. So entry `(b, s, q)` of either result is

      (Σ_j max (Σ_k x[b,s,k] · W1[k,j] + b1[j]) 0 · W2[j,q]) + b2[q],

  the function `Cert.Mlp.spec` of the five arguments. No rearrangement of a sum, no distribution of a product
  over a sum and no cancellation is used, so the finiteness of the inputs is never opened.

  The kernel's idealization rewrote no operation, so that conjunct is `True`. The two kernel programs' frames are
  the generated frame runs; the reference's frame is its run with the result dropped.
-/
import proofs.«124247_j6691559047432_1_alg».proof.Defs
import proofs.«124247_j6691559047432_1_alg».proof.Proof.Gen.Kernel
import proofs.«124247_j6691559047432_1_alg».proof.Proof.Gen.Kernel.Skeleton
import proofs.«124247_j6691559047432_1_alg».proof.Proof.Gen.Kernel.Launch
import proofs.«124247_j6691559047432_1_alg».proof.Proof.Gen.Kernel.Points
import proofs.«124247_j6691559047432_1_alg».proof.Proof.Gen.Kernel.Frame
import proofs.«124247_j6691559047432_1_alg».proof.Proof.Gen.KernelIdeal
import proofs.«124247_j6691559047432_1_alg».proof.Proof.Gen.KernelIdeal.Skeleton
import proofs.«124247_j6691559047432_1_alg».proof.Proof.Gen.KernelIdeal.Launch
import proofs.«124247_j6691559047432_1_alg».proof.Proof.Gen.KernelIdeal.Points
import proofs.«124247_j6691559047432_1_alg».proof.Proof.Gen.KernelIdeal.Frame
import proofs.«124247_j6691559047432_1_alg».proof.Proof.Gen.ReferenceIdeal
import proofs.«124247_j6691559047432_1_alg».proof.Proof.Gen.ReferenceIdeal.Run
import proofs.«124247_j6691559047432_1_alg».proof.Proof.Gen.ReferenceIdeal.Read
import proofs.«124247_j6691559047432_1_alg».proof.Proof.Gen.Pre_finite_inputs
import proofs.«124247_j6691559047432_1_alg».proof.Proof.MlpSpec
import proofs.«124247_j6691559047432_1_alg».proof.Proof.ReferenceValue
import proofs.«124247_j6691559047432_1_alg».proof.Proof.KernelResult
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- From memories that agree on the five arguments both programs end with the result at the perceptron of those
    arguments: the kernel's run ends there (`Cert.KernelMlp.run`), and the reference's run ends at its last stage,
    which is the same function (`Cert.RefMlp.result_eq`). -/
theorem algebraic : Cert.algebraic_KernelIdeal_ReferenceIdeal := by
  intro m ρ m' ρ' _ hagree
  refine ⟨fun c => Cert.KernelMlp.want m c, Cert.KernelMlp.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.RefMlp.result_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
